-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000x128 : Shape := ⟨2, ![50000, 128]⟩
abbrev S5000x64 : Shape := ⟨2, ![5000, 64]⟩
abbrev S5000x128 : Shape := ⟨2, ![5000, 128]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 128
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S50000x128, .f32⟩
  | .hbm, ⟨54, _⟩ => ⟨S1600000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S50000x64, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S50000, .f32⟩
  | .hbm, ⟨76, _⟩ => ⟨S1600000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000, .f32⟩
  | .hbm, ⟨100, _⟩ => ⟨S1600000, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x64, .f32⟩
  | .hbm, ⟨110, _⟩ => ⟨S1600000x1, .f32⟩
  | .hbm, ⟨111, _⟩ => ⟨S1600000x64, .f32⟩
  | .hbm, ⟨112, _⟩ => ⟨S1600000x64, .f32⟩
  | .hbm, ⟨113, _⟩ => ⟨S_, .f32⟩
  | .hbm, ⟨114, _⟩ => ⟨S50000x64, .f32⟩
  | .hbm, ⟨115, _⟩ => ⟨S1600000x1, .i32⟩
  | .hbm, ⟨116, _⟩ => ⟨S50000x64, .f32⟩
  | .hbm, ⟨117, _⟩ => ⟨S50000, .f32⟩
  | .hbm, ⟨118, _⟩ => ⟨S50000x1, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | .hbm, ⟨125, _⟩ => ⟨S_, .f32⟩
  | .hbm, ⟨126, _⟩ => ⟨S50000x64, .f32⟩
  | .hbm, ⟨127, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_cst : Ref sig .tc := ⟨.hbm, 125, rfl⟩
abbrev main_call1_v0 : Ref sig .tc := ⟨.hbm, 126, rfl⟩
abbrev main_v97 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x64_S64x128_S5000x128_1_0_0_1_n_n_wf : DotDims.WF S5000x64 S64x128 S5000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000x128 : Shape := ⟨2, ![50000, 128]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S50000x128, .f32⟩
  | .hbm, ⟨54, _⟩ => ⟨S1600000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S50000x64, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S50000, .f32⟩
  | .hbm, ⟨76, _⟩ => ⟨S1600000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000, .f32⟩
  | .hbm, ⟨100, _⟩ => ⟨S1600000, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x64, .f32⟩
  | .hbm, ⟨110, _⟩ => ⟨S1600000x1, .f32⟩
  | .hbm, ⟨111, _⟩ => ⟨S1600000x64, .f32⟩
  | .hbm, ⟨112, _⟩ => ⟨S1600000x64, .f32⟩
  | .hbm, ⟨113, _⟩ => ⟨S_, .f32⟩
  | .hbm, ⟨114, _⟩ => ⟨S50000x64, .f32⟩
  | .hbm, ⟨115, _⟩ => ⟨S1600000x1, .i32⟩
  | .hbm, ⟨116, _⟩ => ⟨S50000x64, .f32⟩
  | .hbm, ⟨117, _⟩ => ⟨S50000, .f32⟩
  | .hbm, ⟨118, _⟩ => ⟨S50000x1, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | .hbm, ⟨125, _⟩ => ⟨S_, .f32⟩
  | .hbm, ⟨126, _⟩ => ⟨S50000x64, .f32⟩
  | .hbm, ⟨127, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_cst : Ref sig .tc := ⟨.hbm, 125, rfl⟩
abbrev main_call1_v0 : Ref sig .tc := ⟨.hbm, 126, rfl⟩
abbrev main_v97 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.BlockProduct.lean ====
/-
  The arithmetic of one grid step of either dense layer, over the extended reals.

  A grid step loads a block of 5000 rows of the activations and the whole weight matrix, rounds both to bf16, and stores
  their matrix product accumulated from zero. Over the extended reals a change of float format is the identity and the
  product is exact, so the stored entry (r, c) is the finite sum over k of x[r, k] * w[k, c] — the same sum a plain
  `dot_general` of those operands has there.
-/
import proofs.«120932_j22385369547414_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-! ## Region 0: one block of rows times the whole weight matrix -/

/-- Axis 0 of the left operand's index is the output row. -/
theorem lhs0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- Axis 1 of the left operand's index is the contracted coordinate. -/
theorem lhs0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- Axis 0 of the right operand's index is the contracted coordinate. -/
theorem rhs0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- Axis 1 of the right operand's index is the output column. -/
theorem rhs0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry (row of `i`, `k`) of the block of rows. -/
abbrev rowAt0 (i : S5000x128.Idx) (k : Fin 64) : S5000x64.Idx := fun a => match a with
  | ⟨0, _⟩ => ⟨(i 0).val, (i 0).isLt⟩
  | ⟨1, _⟩ => ⟨k.val, k.isLt⟩
/-- Entry (`k`, column of `i`) of the weight matrix. -/
abbrev colAt0 (i : S5000x128.Idx) (k : Fin 64) : S64x128.Idx := fun a => match a with
  | ⟨0, _⟩ => ⟨k.val, k.isLt⟩
  | ⟨1, _⟩ => ⟨(i 1).val, (i 1).isLt⟩

/-- Over the extended reals the body's stored value at entry `i` is the plain inner product of row `i 0` of the block with
    column `i 1` of the weights: rounding the operands to bf16 changes nothing there, and the accumulator starts at zero. -/
theorem k0_pay1_apply (x : Vec Ideal S5000x64 .f32) (w : Vec Ideal S64x128 .f32) (i : S5000x128.Idx) :
    k0_pay1 (F := Ideal) x w i = ∑ k : Fin 64, x (rowAt0 i k) * w (colAt0 i k) := by
  unfold k0_pay1
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx i ((ValueIdx.contrEquiv1 dot_S5000x64_S64x128_S5000x128_1_0_0_1_n_n 64 rfl rfl).symm k) = rowAt0 i k := funext fun a => Fin.ext (by
    match a with
    | ⟨0, _⟩ => exact lhs0_0 _ _
    | ⟨1, _⟩ => exact (lhs0_1 _ _).trans hk)
  have er : dot_S5000x64_S64x128_S5000x128_1_0_0_1_n_n.rhsIdx i ((ValueIdx.contrEquiv1 dot_S5000x64_S64x128_S5000x128_1_0_0_1_n_n 64 rfl rfl).symm k) = colAt0 i k := funext fun a => Fin.ext (by
    match a with
    | ⟨0, _⟩ => exact (rhs0_0 _ _).trans hk
    | ⟨1, _⟩ => exact rhs0_1 _ _)
  rw [el, er]
  rfl

/-! ## Region 1: one block of rows times the whole weight matrix -/

/-- Axis 0 of the left operand's index is the output row. -/
theorem lhs1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Axis 1 of the left operand's index is the contracted coordinate. -/
theorem lhs1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- Axis 0 of the right operand's index is the contracted coordinate. -/
theorem rhs1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- Axis 1 of the right operand's index is the output column. -/
theorem rhs1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (row of `i`, `k`) of the block of rows. -/
abbrev rowAt1 (i : S5000x64.Idx) (k : Fin 128) : S5000x128.Idx := fun a => match a with
  | ⟨0, _⟩ => ⟨(i 0).val, (i 0).isLt⟩
  | ⟨1, _⟩ => ⟨k.val, k.isLt⟩
/-- Entry (`k`, column of `i`) of the weight matrix. -/
abbrev colAt1 (i : S5000x64.Idx) (k : Fin 128) : S128x64.Idx := fun a => match a with
  | ⟨0, _⟩ => ⟨k.val, k.isLt⟩
  | ⟨1, _⟩ => ⟨(i 1).val, (i 1).isLt⟩

/-- Over the extended reals the body's stored value at entry `i` is the plain inner product of row `i 0` of the block with
    column `i 1` of the weights: rounding the operands to bf16 changes nothing there, and the accumulator starts at zero. -/
theorem k1_pay1_apply (x : Vec Ideal S5000x128 .f32) (w : Vec Ideal S128x64 .f32) (i : S5000x64.Idx) :
    k1_pay1 (F := Ideal) x w i = ∑ k : Fin 128, x (rowAt1 i k) * w (colAt1 i k) := by
  unfold k1_pay1
  rw [shapeCast_self]
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = rowAt1 i k := funext fun a => Fin.ext (by
    match a with
    | ⟨0, _⟩ => exact lhs1_0 _ _
    | ⟨1, _⟩ => exact (lhs1_1 _ _).trans hk)
  have er : dot_S5000x128_S128x64_S5000x64_1_0_0_1_n_n.rhsIdx i ((ValueIdx.contrEquiv1 dot_S5000x128_S128x64_S5000x64_1_0_0_1_n_n 128 rfl rfl).symm k) = colAt1 i k := funext fun a => Fin.ext (by
    match a with
    | ⟨0, _⟩ => exact (rhs1_0 _ _).trans hk
    | ⟨1, _⟩ => exact rhs1_1 _ _)
  rw [el, er]
  rfl

end Cert.KernelIdeal.BlockProduct

end
-- ==== Proof.DenseLayer.lean ====
/-
  The two dense layers of the reference on whole arrays, over the extended reals.

  The reference computes h = x @ W with the host's `dot_general`. Over the extended reals that product is exact: entry
  (r, c) of h is the finite sum over k of x[r, k] * W[k, c]. This module names the two products (50000x64 by 64x128, and
  50000x128 by 128x64) and reads each at an entry as that sum over the contracted coordinate.
-/
import proofs.«120932_j22385369547414_1_alg».proof.Proof.Gen.ReferenceIdeal
import Idealize.ShloMosaic.Lib.ValueIdx
import Idealize.ShloMosaic.PureOps.Ideal.Laws

noncomputable section

namespace Cert.ReferenceIdeal.Dense

open Cert.ReferenceIdeal Cert.ReferenceIdeal.Gen Idealize.ShloMosaic Idealize.ShloMosaic.TcCoe Idealize.SL.Sem

/-! ## Layer 1: the whole activations times the whole weight matrix -/

/-- Axis 0 of the left operand's index is the output row. -/
theorem lhs0_0 (i : S50000x128.Idx) (q : dot_S50000x64_S64x128_S50000x128_1_0_0_1_n_n.contr.Idx) :
    (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch by decide), dif_pos (show (0 : Fin S50000x64.rank) ∈ dot_S50000x64_S64x128_S50000x128_1_0_0_1_n_n.lhsNonContracting by decide)]
  rfl
/-- Axis 1 of the left operand's index is the contracted coordinate. -/
theorem lhs0_1 (i : S50000x128.Idx) (q : dot_S50000x64_S64x128_S50000x128_1_0_0_1_n_n.contr.Idx) :
    (dot_S50000x64_S64x128_S50000x128_1_0_0_1_n_n.lhsIdx i q 1).val = (q ⟨0, by decide⟩).val :=
  dot_S50000x64_S64x128_S50000x128_1_0_0_1_n_n.lhsIdx_val_of_single rfl i q
/-- Axis 0 of the right operand's index is the contracted coordinate. -/
theorem rhs0_0 (i : S50000x128.Idx) (q : dot_S50000x64_S64x128_S50000x128_1_0_0_1_n_n.contr.Idx) :
    (dot_S50000x64_S64x128_S50000x128_1_0_0_1_n_n.rhsIdx i q 0).val = (q ⟨0, by decide⟩).val :=
  dot_S50000x64_S64x128_S50000x128_1_0_0_1_n_n.rhsIdx_val_of_single rfl i q
/-- Axis 1 of the right operand's index is the output column. -/
theorem rhs0_1 (i : S50000x128.Idx) (q : dot_S50000x64_S64x128_S50000x128_1_0_0_1_n_n.contr.Idx) :
    (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch by decide), dif_pos (show (1 : Fin S64x128.rank) ∈ dot_S50000x64_S64x128_S50000x128_1_0_0_1_n_n.rhsNonContracting by decide)]
  rfl

/-- Entry (row of `i`, `k`) of the activations. -/
abbrev rowAt0 (i : S50000x128.Idx) (k : Fin 64) : S50000x64.Idx := fun a => match a with
  | ⟨0, _⟩ => ⟨(i 0).val, (i 0).isLt⟩
  | ⟨1, _⟩ => ⟨k.val, k.isLt⟩
/-- Entry (`k`, column of `i`) of the weight matrix. -/
abbrev colAt0 (i : S50000x128.Idx) (k : Fin 64) : S64x128.Idx := fun a => match a with
  | ⟨0, _⟩ => ⟨k.val, k.isLt⟩
  | ⟨1, _⟩ => ⟨(i 1).val, (i 1).isLt⟩

/-- The dense layer on whole arrays, as the reference computes it: the host's product of the activations with the weights. -/
abbrev dense0 (x : FVec Ideal S50000x64 .f32) (w : FVec Ideal S64x128 .f32) : FVec Ideal S50000x128 .f32 :=
  Host.dotGeneral (F := Ideal) dot_S50000x64_S64x128_S50000x128_1_0_0_1_n_n none x w

/-- Over the extended reals its entry `i` is the inner product of row `i 0` of the activations with column `i 1` of the weights. -/
theorem dense0_apply (x : FVec Ideal S50000x64 .f32) (w : FVec Ideal S64x128 .f32) (i : S50000x128.Idx) :
    dense0 x w i = ∑ k : Fin 64, x (rowAt0 i k) * w (colAt0 i k) := by
  simp only [dense0, Host.dotGeneral]
  rw [Ideal.dotGeneral_apply, ← Equiv.sum_comp (ValueIdx.contrEquiv1 dot_S50000x64_S64x128_S50000x128_1_0_0_1_n_n 64 rfl rfl).symm]
  refine Finset.sum_congr rfl fun k _ => ?_
  have hk := ValueIdx.contrEquiv1_symm_val dot_S50000x64_S64x128_S50000x128_1_0_0_1_n_n 64 rfl rfl k
  have el : dot_S50000x64_S64x128_S50000x128_1_0_0_1_n_n.lhsIdx i ((ValueIdx.contrEquiv1 dot_S50000x64_S64x128_S50000x128_1_0_0_1_n_n 64 rfl rfl).symm k) = rowAt0 i k := funext fun a => Fin.ext (by
    match a with
    | ⟨0, _⟩ => exact lhs0_0 _ _
    | ⟨1, _⟩ => exact (lhs0_1 _ _).trans hk)
  have er : dot_S50000x64_S64x128_S50000x128_1_0_0_1_n_n.rhsIdx i ((ValueIdx.contrEquiv1 dot_S50000x64_S64x128_S50000x128_1_0_0_1_n_n 64 rfl rfl).symm k) = colAt0 i k := funext fun a => Fin.ext (by
    match a with
    | ⟨0, _⟩ => exact (rhs0_0 _ _).trans hk
    | ⟨1, _⟩ => exact rhs0_1 _ _)
  rw [el, er]

/-! ## Layer 2: the whole activations times the whole weight matrix -/

/-- Axis 0 of the left operand's index is the output row. -/
theorem lhs1_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
/-- Axis 1 of the left operand's index is the contracted coordinate. -/
theorem lhs1_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
/-- Axis 0 of the right operand's index is the contracted coordinate. -/
theorem rhs1_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
/-- Axis 1 of the right operand's index is the output column. -/
theorem rhs1_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- Entry (row of `i`, `k`) of the activations. -/
abbrev rowAt1 (i : S50000x64.Idx) (k : Fin 128) : S50000x128.Idx := fun a => match a with
  | ⟨0, _⟩ => ⟨(i 0).val, (i 0).isLt⟩
  | ⟨1, _⟩ => ⟨k.val, k.isLt⟩
/-- Entry (`k`, column of `i`) of the weight matrix. -/
abbrev colAt1 (i : S50000x64.Idx) (k : Fin 128) : S128x64.Idx := fun a => match a with
  | ⟨0, _⟩ => ⟨k.val, k.isLt⟩
  | ⟨1, _⟩ => ⟨(i 1).val, (i 1).isLt⟩

/-- The dense layer on whole arrays, as the reference computes it: the host's product of the activations with the weights. -/
abbrev dense1 (x : FVec Ideal S50000x128 .f32) (w : FVec Ideal S128x64 .f32) : FVec Ideal S50000x64 .f32 :=
  Host.dotGeneral (F := Ideal) dot_S50000x128_S128x64_S50000x64_1_0_0_1_n_n none x w

/-- Over the extended reals its entry `i` is the inner product of row `i 0` of the activations with column `i 1` of the weights. -/
theorem dense1_apply (x : FVec Ideal S50000x128 .f32) (w : FVec Ideal S128x64 .f32) (i : S50000x64.Idx) :
    dense1 x w i = ∑ k : Fin 128, x (rowAt1 i k) * w (colAt1 i k) := by
  simp only [dense1, Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = rowAt1 i k := funext fun a => Fin.ext (by
    match a with
    | ⟨0, _⟩ => exact lhs1_0 _ _
    | ⟨1, _⟩ => exact (lhs1_1 _ _).trans hk)
  have er : dot_S50000x128_S128x64_S50000x64_1_0_0_1_n_n.rhsIdx i ((ValueIdx.contrEquiv1 dot_S50000x128_S128x64_S50000x64_1_0_0_1_n_n 128 rfl rfl).symm k) = colAt1 i k := funext fun a => Fin.ext (by
    match a with
    | ⟨0, _⟩ => exact (rhs1_0 _ _).trans hk
    | ⟨1, _⟩ => exact rhs1_1 _ _)
  rw [el, er]

end Cert.ReferenceIdeal.Dense

end
-- ==== Proof.RegionValue.lean ====
/-
  What each of the two matrix-product regions leaves in its output array, over the extended reals.

  A region runs ten grid steps. Step t stages rows 5000 t .. 5000 t + 4999 of the activations and the whole weight matrix,
  and writes back their product as rows 5000 t .. 5000 t + 4999 of the output. The ten blocks tile the 50000 rows, so after
  the region the output array is the product of the whole activations with the weights — the array the reference's
  `dot_general` computes from the same operands. Stated for any contents of the buffers at the region's entry.
-/
import proofs.«120932_j22385369547414_1_alg».proof.Proof.Gen.KernelIdeal.Frame
import proofs.«120932_j22385369547414_1_alg».proof.Proof.BlockProduct
import proofs.«120932_j22385369547414_1_alg».proof.Proof.DenseLayer
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The origin of a rank-2 buffer. -/
theorem hz : (![0, 0] : Fin 2 → Nat) = fun _ => 0 := funext fun a => by fin_cases a <;> rfl

/-! ## Region 0 -/

/-- The index maps over the ten grid steps, decided: the activations' block moves with the output's block along the rows,
    the weights' block stays at the origin, and no block moves along the columns. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Each of the ten row blocks of the output is some grid step's. -/
theorem idx_onto0 : ∀ q : Fin 10, ∃ t : Fin cfg0.N, win0_2.index t (0 : Fin 2) = q.val :=
  (by decide +kernel : ∀ q : Fin 10, ∃ t : Fin grid0.N, win0_2.index t (0 : Fin 2) = q.val)

/-- What grid step `t` writes back is block `t` of the whole-array product of the region's two input arrays: entry (r, c) of
    the step's block product is the inner product of row r of the step's 5000 rows with column c of the weights, and
    row r of the step's rows is row (block index * 5000 + r) of the activations. -/
theorem flushed0_eq (c : Dev nD) (t : Fin cfg0.N) :
    (dat0 V c).flushed 2 t = ((cfg0.win 2).blk t).view.read (Elt Ideal) (Cert.ReferenceIdeal.Dense.dense0 (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x128) hz]
  obtain ⟨e0, e1, e2, e3, e4⟩ := idx_facts0 t
  funext j
  show k0_pay1 (F := Ideal) (iblk0 V c 0 t) (iblk0 V c 1 t) j = Cert.ReferenceIdeal.Dense.dense0 (V c main_arg0) (V c main_arg2) (((cfg0.win 2).blk t).view.emb j)
  refine (Cert.KernelIdeal.BlockProduct.k0_pay1_apply (iblk0 V c 0 t) (iblk0 V c 1 t) j).trans ?_
  refine Eq.trans ?_ (Cert.ReferenceIdeal.Dense.dense0_apply (V c main_arg0) (V c main_arg2) (((cfg0.win 2).blk t).view.emb j)).symm
  refine Finset.sum_congr rfl fun k _ => ?_
  have hx : iblk0 V c 0 t (Cert.KernelIdeal.BlockProduct.rowAt0 j k) = V c main_arg0 (Cert.ReferenceIdeal.Dense.rowAt0 (((cfg0.win 2).blk t).view.emb j) k) := by
    show V c main_arg0 (((cfg0.win 0).blk t).view.emb (Cert.KernelIdeal.BlockProduct.rowAt0 j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hw : iblk0 V c 1 t (Cert.KernelIdeal.BlockProduct.colAt0 j k) = V c main_arg2 (Cert.ReferenceIdeal.Dense.colAt0 (((cfg0.win 2).blk t).view.emb j) k) := by
    show V c main_arg2 (((cfg0.win 1).blk t).view.emb (Cert.KernelIdeal.BlockProduct.colAt0 j k)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega
  rw [hx, hw]

/-- An index of the output array is in grid step `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- After the ten grid steps the output array holds the whole-array product of the region's two input arrays as the region
    found them: row r lies in the block of step r / 5000, and the ten blocks tile the rows. -/
theorem out0 (c : Dev nD) : (dat0 V c).arrAt 2 cfg0.N = Cert.ReferenceIdeal.Dense.dense0 (V c main_arg0) (V c main_arg2) :=
  (dat0 V c).arrAt_eq_of_cover 2 (Cert.ReferenceIdeal.Dense.dense0 (V c main_arg0) (V c main_arg2)) (fun t _ => flushed0_eq V c t) fun i => by
    have hi0 : (i 0).val < 50000 := (i 0).isLt
    have hi1 : (i 1).val < 128 := (i 1).isLt
    obtain ⟨t, ht⟩ := idx_onto0 ⟨(i 0).val / 5000, by omega⟩
    have ht' : win0_2.index t (0 : Fin 2) = (i 0).val / 5000 := ht
    obtain ⟨e0, e1, e2, e3, e4⟩ := idx_facts0 t
    refine ⟨t, flush0_2 t, ?_⟩
    rw [mem_blk0]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 128 ≤ (i 1).val ∧ (i 1).val < win0_2.index t (1 : Fin 2) * 128 + 128; omega

/-! ## Region 1 -/

/-- The index maps over the ten grid steps, decided: the activations' block moves with the output's block along the rows,
    the weights' block stays at the origin, and no block moves along the columns. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Each of the ten row blocks of the output is some grid step's. -/
theorem idx_onto1 : ∀ q : Fin 10, ∃ t : Fin cfg1.N, win1_2.index t (0 : Fin 2) = q.val :=
  (by decide +kernel : ∀ q : Fin 10, ∃ t : Fin grid1.N, win1_2.index t (0 : Fin 2) = q.val)

/-- What grid step `t` writes back is block `t` of the whole-array product of the region's two input arrays: entry (r, c) of
    the step's block product is the inner product of row r of the step's 5000 rows with column c of the weights, and
    row r of the step's rows is row (block index * 5000 + r) of the activations. -/
theorem flushed1_eq (c : Dev nD) (t : Fin cfg1.N) :
    (dat1 V c).flushed 2 t = ((cfg1.win 2).blk t).view.read (Elt Ideal) (Cert.ReferenceIdeal.Dense.dense1 (V c main_v48) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4⟩ := idx_facts1 t
  funext j
  show k1_pay1 (F := Ideal) (iblk1 V c 0 t) (iblk1 V c 1 t) j = Cert.ReferenceIdeal.Dense.dense1 (V c main_v48) (V c main_arg4) (((cfg1.win 2).blk t).view.emb j)
  refine (Cert.KernelIdeal.BlockProduct.k1_pay1_apply (iblk1 V c 0 t) (iblk1 V c 1 t) j).trans ?_
  refine Eq.trans ?_ (Cert.ReferenceIdeal.Dense.dense1_apply (V c main_v48) (V c main_arg4) (((cfg1.win 2).blk t).view.emb j)).symm
  refine Finset.sum_congr rfl fun k _ => ?_
  have hx : iblk1 V c 0 t (Cert.KernelIdeal.BlockProduct.rowAt1 j k) = V c main_v48 (Cert.ReferenceIdeal.Dense.rowAt1 (((cfg1.win 2).blk t).view.emb j) k) := by
    show V c main_v48 (((cfg1.win 0).blk t).view.emb (Cert.KernelIdeal.BlockProduct.rowAt1 j k)) = _
    refine congrArg (V c main_v48) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hw : iblk1 V c 1 t (Cert.KernelIdeal.BlockProduct.colAt1 j k) = V c main_arg4 (Cert.ReferenceIdeal.Dense.colAt1 (((cfg1.win 2).blk t).view.emb j) k) := by
    show V c main_arg4 (((cfg1.win 1).blk t).view.emb (Cert.KernelIdeal.BlockProduct.colAt1 j k)) = _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [hx, hw]

/-- An index of the output array is in grid step `t`'s block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v53).slice (win1_2.rect t)).set ↔ _
  rw [View.set_slice_whole, Rect.mem_set_unit]
  exact Iff.rfl

/-- After the ten grid steps the output array holds the whole-array product of the region's two input arrays as the region
    found them: row r lies in the block of step r / 5000, and the ten blocks tile the rows. -/
theorem out1 (c : Dev nD) : (dat1 V c).arrAt 2 cfg1.N = Cert.ReferenceIdeal.Dense.dense1 (V c main_v48) (V c main_arg4) :=
  (dat1 V c).arrAt_eq_of_cover 2 (Cert.ReferenceIdeal.Dense.dense1 (V c main_v48) (V c main_arg4)) (fun t _ => flushed1_eq V c t) fun i => by
    have hi0 : (i 0).val < 50000 := (i 0).isLt
    have hi1 : (i 1).val < 64 := (i 1).isLt
    obtain ⟨t, ht⟩ := idx_onto1 ⟨(i 0).val / 5000, by omega⟩
    have ht' : win1_2.index t (0 : Fin 2) = (i 0).val / 5000 := ht
    obtain ⟨e0, e1, e2, e3, e4⟩ := idx_facts1 t
    refine ⟨t, flush1_2 t, ?_⟩
    rw [mem_blk1]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 64 ≤ (i 1).val ∧ (i 1).val < win1_2.index t (1 : Fin 2) * 64 + 64; omega

end Cert.KernelIdeal.RegionValue

end
-- ==== Proof.Boundary.lean ====
/-
  The contents of the buffers the host chain reads, at each boundary of the idealized kernel's @main.

  @main is: four index operations; the first matrix-product region; the first layer's normalise / gather / scatter-add /
  bias / relu chain; the second matrix-product region; the second layer's chain. No operation and no region writes an
  argument, so an argument read at any boundary is the launch memory's; and each region's output array, at the region's
  exit, is the dense product of the region's two input arrays as they stood at its entry.
-/
import proofs.«120932_j22385369547414_1_alg».proof.Proof.Gen.KernelIdeal.Frame
import proofs.«120932_j22385369547414_1_alg».proof.Proof.RegionValue
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

theorem entry0_arg0 : W1 m ρ c (Proc.devRef .tc main_arg0) = m ((c : Thread nD τ).loc main_arg0) := by
  dsimp only [W1, hostOps0]; after_results
theorem entry0_arg1 : W1 m ρ c (Proc.devRef .tc main_arg1) = m ((c : Thread nD τ).loc main_arg1) := by
  dsimp only [W1, hostOps0]; after_results
theorem entry0_arg2 : W1 m ρ c (Proc.devRef .tc main_arg2) = m ((c : Thread nD τ).loc main_arg2) := by
  dsimp only [W1, hostOps0]; after_results
theorem entry0_arg3 : W1 m ρ c (Proc.devRef .tc main_arg3) = m ((c : Thread nD τ).loc main_arg3) := by
  dsimp only [W1, hostOps0]; after_results
theorem entry0_arg4 : W1 m ρ c (Proc.devRef .tc main_arg4) = m ((c : Thread nD τ).loc main_arg4) := by
  dsimp only [W1, hostOps0]; after_results
theorem entry0_arg5 : W1 m ρ c (Proc.devRef .tc main_arg5) = m ((c : Thread nD τ).loc main_arg5) := by
  dsimp only [W1, hostOps0]; after_results

/-! ## At the first region's exit -/

/-- The first layer's feature transform: the region's output is x @ W1. -/
theorem exit0_h : W2 m ρ c (Proc.devRef .tc main_v4)
    = Cert.ReferenceIdeal.Dense.dense0 (m ((c : Thread nD τ).loc main_arg0)) (m ((c : Thread nD τ).loc main_arg2)) := by
  refine ((W2_arr m ρ c 2).trans (Cert.KernelIdeal.RegionValue.out0 (V1 m ρ) c)).trans ?_
  show Cert.ReferenceIdeal.Dense.dense0 (W1 m ρ c (Proc.devRef .tc main_arg0)) (W1 m ρ c (Proc.devRef .tc main_arg2)) = _
  rw [entry0_arg0, entry0_arg2]
theorem exit0_arg1 : W2 m ρ c (Proc.devRef .tc main_arg1) = m ((c : Thread nD τ).loc main_arg1) :=
  (W2_of_ne m ρ c main_arg1 (by decide)).trans (entry0_arg1 m ρ c)
theorem exit0_arg3 : W2 m ρ c (Proc.devRef .tc main_arg3) = m ((c : Thread nD τ).loc main_arg3) :=
  (W2_of_ne m ρ c main_arg3 (by decide)).trans (entry0_arg3 m ρ c)
theorem exit0_arg4 : W2 m ρ c (Proc.devRef .tc main_arg4) = m ((c : Thread nD τ).loc main_arg4) :=
  (W2_of_ne m ρ c main_arg4 (by decide)).trans (entry0_arg4 m ρ c)
theorem exit0_arg5 : W2 m ρ c (Proc.devRef .tc main_arg5) = m ((c : Thread nD τ).loc main_arg5) :=
  (W2_of_ne m ρ c main_arg5 (by decide)).trans (entry0_arg5 m ρ c)

/-! ## At the second region's entry: the first layer's host chain has run -/

theorem entry1_arg1 : W5 m ρ c (Proc.devRef .tc main_arg1) = m ((c : Thread nD τ).loc main_arg1) := by
  dsimp only [W5, W4, W3, hostOps1, hostOps1_1, hostOps1_2]; after_results_simp; exact exit0_arg1 m ρ c
theorem entry1_arg4 : W5 m ρ c (Proc.devRef .tc main_arg4) = m ((c : Thread nD τ).loc main_arg4) := by
  dsimp only [W5, W4, W3, hostOps1, hostOps1_1, hostOps1_2]; after_results_simp; exact exit0_arg4 m ρ c
theorem entry1_arg5 : W5 m ρ c (Proc.devRef .tc main_arg5) = m ((c : Thread nD τ).loc main_arg5) := by
  dsimp only [W5, W4, W3, hostOps1, hostOps1_1, hostOps1_2]; after_results_simp; exact exit0_arg5 m ρ c

/-! ## At the second region's exit -/

/-- The second layer's feature transform: the region's output is (the first layer's output) @ W2. -/
theorem exit1_h : W6 m ρ c (Proc.devRef .tc main_v53)
    = Cert.ReferenceIdeal.Dense.dense1 (W5 m ρ c (Proc.devRef .tc main_v48)) (m ((c : Thread nD τ).loc main_arg4)) := by
  refine ((W6_arr m ρ c 2).trans (Cert.KernelIdeal.RegionValue.out1 (V5 m ρ) c)).trans ?_
  show Cert.ReferenceIdeal.Dense.dense1 (W5 m ρ c (Proc.devRef .tc main_v48)) (W5 m ρ c (Proc.devRef .tc main_arg4)) = _
  rw [entry1_arg4]
theorem exit1_arg1 : W6 m ρ c (Proc.devRef .tc main_arg1) = m ((c : Thread nD τ).loc main_arg1) :=
  (W6_of_ne m ρ c main_arg1 (by decide)).trans (entry1_arg1 m ρ c)
theorem exit1_arg5 : W6 m ρ c (Proc.devRef .tc main_arg5) = m ((c : Thread nD τ).loc main_arg5) :=
  (W6_of_ne m ρ c main_arg5 (by decide)).trans (entry1_arg5 m ρ c)

end Cert.KernelIdeal.Boundary

end
-- ==== Proof.Result.lean ====
/-
  The idealized kernel's result is the idealized reference's result.

  Both programs are the same two-layer graph convolution. A layer is: the feature transform h = x @ W; the degrees by a
  scatter-add of ones over the edges' destinations, plus one for the self-loop; dis = rsqrt(deg); for every edge the
  message h[src] * (dis[src] * dis[dst]), scatter-added at dst; plus the self-loop term h * dis^2; plus the bias; then relu.
  The two programs apply literally the same host operations around the feature transform, and differ only in how h is
  computed: the kernel by ten row blocks rounded to bf16 and multiplied with a zero accumulator, the reference by one
  dot_general. Over the extended reals both are the same finite sums of products, so the feature transforms are equal
  as arrays, and everything downstream is the same function of them.

  The proof reads the kernel's result buffer back through the second layer's host chain, the second region, the first
  layer's host chain and the first region, down to the launch memory, and meets the reference's composed term there.
-/
import proofs.«120932_j22385369547414_1_alg».proof.Proof.Boundary
import proofs.«120932_j22385369547414_1_alg».proof.Proof.Gen.ReferenceIdeal.Run

set_option maxRecDepth 16384

noncomputable section

namespace Cert.KernelIdeal.Result

open Cert.KernelIdeal Cert.KernelIdeal.Gen Cert.KernelIdeal.Boundary
open Idealize.ShloMosaic Idealize.ShloMosaic.TcCoe Idealize.SL.Sem Idealize.ShloMosaic.StableHlo

/-! ## The two programs' gather and scatter dimension records are the same records -/

theorem rec0 : Cert.KernelIdeal.scatter_S50000_S1600000x1_S1600000_n_0_0_1 = Cert.ReferenceIdeal.scatter_S50000_S1600000x1_S1600000_n_0_0_1 := rfl
theorem rec1 : Cert.KernelIdeal.gather_S50000_S1600000x1_S1600000_n_0_n_n_0_1_1 = Cert.ReferenceIdeal.gather_S50000_S1600000x1_S1600000_n_0_n_n_0_1_1 := rfl
theorem rec2 : Cert.KernelIdeal.gather_S50000x128_S1600000x1_S1600000x128_1_0_n_n_0_1_1128 = Cert.ReferenceIdeal.gather_S50000x128_S1600000x1_S1600000x128_1_0_n_n_0_1_1128 := rfl
theorem rec3 : Cert.KernelIdeal.scatter_S50000x128_S1600000x1_S1600000x128_1_0_0_1 = Cert.ReferenceIdeal.scatter_S50000x128_S1600000x1_S1600000x128_1_0_0_1 := rfl
theorem rec4 : Cert.KernelIdeal.gather_S50000x64_S1600000x1_S1600000x64_1_0_n_n_0_1_164 = Cert.ReferenceIdeal.gather_S50000x64_S1600000x1_S1600000x64_1_0_n_n_0_1_164 := rfl
theorem rec5 : Cert.KernelIdeal.scatter_S50000x64_S1600000x1_S1600000x64_1_0_0_1 = Cert.ReferenceIdeal.scatter_S50000x64_S1600000x1_S1600000x64_1_0_0_1 := rfl

/-- The launch memory read at the edge list. -/
theorem launch_arg1 (m : (ℓ : Loc nD τ sig) → Buf (Elt Ideal) ℓ) (ρ : Dev nD → PrngReg) (c : Dev nD) :
    W0 m ρ c (Proc.devRef .tc main_arg1) = m ((c : Thread nD τ).loc main_arg1) := rfl

/-! ## The relu is a called function: its operands pass through typed references, whose transport of contents is the identity -/

/-- Contents carried into a reference's buffer type and back are unchanged. -/
theorem ofBuf_toBuf {T : BufTy} (x : TRef sig T) (v : T.Contents (Elt Ideal)) : x.ofBuf (x.toBuf v) = v := by
  obtain ⟨r, h, hd, hu⟩ := x
  subst h
  rfl

/-- At the second relu's result and operand, and at the first relu's, the transport is between equal types. -/
theorem toBuf_v97 (v : (⟨S50000x64, .f32⟩ : BufTy).Contents (Elt Ideal)) :
    (TRef.of (sig := sig) (T := ⟨S50000x64, .f32⟩) main_v97).toBuf (Val := Elt Ideal) v = v := rfl
theorem ofBuf_v96 (v : (⟨S50000x64, .f32⟩ : BufTy).Contents (Elt Ideal)) :
    (TRef.of (sig := sig) (T := ⟨S50000x64, .f32⟩) main_v96).ofBuf (Val := Elt Ideal) v = v := rfl
theorem toBuf_v48 (v : (⟨S50000x128, .f32⟩ : BufTy).Contents (Elt Ideal)) :
    (TRef.of (sig := sig) (T := ⟨S50000x128, .f32⟩) main_v48).toBuf (Val := Elt Ideal) v = v := rfl
theorem ofBuf_v47 (v : (⟨S50000x128, .f32⟩ : BufTy).Contents (Elt Ideal)) :
    (TRef.of (sig := sig) (T := ⟨S50000x128, .f32⟩) main_v47).ofBuf (Val := Elt Ideal) v = v := rfl

set_option maxHeartbeats 4000000 in
/-- From memories that agree on the six arguments, the reference's result term is what the kernel's run leaves in its result
    buffer. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.Value.res_main_v97 (F := Ideal) m' c = W8 m ρ c (Proc.devRef .tc main_v97) := by
  symm
  -- the second layer's host chain, read back to the second region's exit
  dsimp only [W8, W7, hostOps2, hostOps2_1]
  after_results_simp
  -- the region writes the transform; the edge lists' two rows, sliced before it, and the bias pass through it
  rw [exit1_h, exit1_arg5, W6_of_ne m ρ c main_v50 (by decide), W6_of_ne m ρ c main_v52 (by decide)]
  -- the first layer's host chain, read back to the first region's exit
  dsimp only [W5, W4, W3, hostOps1, hostOps1_1, hostOps1_2]
  after_results_simp
  rw [exit0_h, exit0_arg1, exit0_arg3, W2_of_ne m ρ c main_v1 (by decide), W2_of_ne m ρ c main_v3 (by decide)]
  -- the four index operations before the first region, read back to the launch memory
  dsimp only [W1, hostOps0]
  after_results_simp
  rw [launch_arg1]
  -- one spelling for the dimension records and for the two dense products
  simp only [rec0, rec1, rec2, rec3, rec4, rec5]
  dsimp only [Cert.ReferenceIdeal.Dense.dense0, Cert.ReferenceIdeal.Dense.dense1]
  -- the reference's term over the same arguments
  unfold Cert.ReferenceIdeal.Value.res_main_v97
  rw [h0, h1, h2, h3, h4, h5]
  -- the relus' transports dropped, the two sides are the same operations of the same arguments
  simp only [ofBuf_toBuf, toBuf_v97, ofBuf_v96, toBuf_v48, ofBuf_v47]
  rfl

end Cert.KernelIdeal.Result

end
-- ==== Proof.lean ====
/-
  The certificate of a two-layer graph convolution whose two feature transforms run as Pallas matrix-product kernels,
  against the plain jnp reference.

  Both programs compute relu(conv(relu(conv(x, W1, b1)), W2, b2)), where
  conv(x, W, b) = scatter_add over edges of (x W)[src] * dis[src] * dis[dst]  +  (x W) * dis^2  +  b, dis = rsqrt(1 + in-degree).
  They share every host operation; only the product x W differs in how it is computed (ten 5000-row blocks, operands
  rounded to bf16, accumulated from zero, against one dot_general). Over the extended reals a change of float format is
  the identity and both products are the same finite sums, so the results agree entry by entry. The two sums are the same sums term by term, so no
  algebraic law that could fail at an infinity is needed, and the finiteness of the inputs is never used.

  Frames: the two kernel programs by the launch over their host stretches and regions; the reference by its run.
  The idealization rewrote no operation, so there is nothing to preserve beyond the text read over the extended reals.
-/
import proofs.«120932_j22385369547414_1_alg».proof.Defs
import proofs.«120932_j22385369547414_1_alg».proof.Proof.Gen.Kernel
import proofs.«120932_j22385369547414_1_alg».proof.Proof.Gen.Kernel.Skeleton
import proofs.«120932_j22385369547414_1_alg».proof.Proof.Gen.Kernel.Launch
import proofs.«120932_j22385369547414_1_alg».proof.Proof.Gen.Kernel.Points
import proofs.«120932_j22385369547414_1_alg».proof.Proof.Gen.Kernel.Frame
import proofs.«120932_j22385369547414_1_alg».proof.Proof.Gen.KernelIdeal
import proofs.«120932_j22385369547414_1_alg».proof.Proof.Gen.KernelIdeal.Skeleton
import proofs.«120932_j22385369547414_1_alg».proof.Proof.Gen.KernelIdeal.Launch
import proofs.«120932_j22385369547414_1_alg».proof.Proof.Gen.KernelIdeal.Points
import proofs.«120932_j22385369547414_1_alg».proof.Proof.Gen.KernelIdeal.Frame
import proofs.«120932_j22385369547414_1_alg».proof.Proof.Gen.ReferenceIdeal
import proofs.«120932_j22385369547414_1_alg».proof.Proof.Gen.ReferenceIdeal.Run
import proofs.«120932_j22385369547414_1_alg».proof.Proof.Gen.Pre_finite_inputs
import proofs.«120932_j22385369547414_1_alg».proof.Proof.KernelRun
import proofs.«120932_j22385369547414_1_alg».proof.Proof.Result
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and the reference's result is the kernel's: the kernel's run
    leaves in its result buffer the value the chain of host stretches and regions computes, and the reference's composed
    term is that value. -/
theorem algebraic : Cert.algebraic_KernelIdeal_ReferenceIdeal := by
  intro m ρ m' ρ' _ hagree
  refine ⟨fun c => Cert.KernelIdeal.Gen.W8 m ρ c (Proc.devRef .tc Cert.KernelIdeal.main_v97),
    Cert.KernelIdeal.Launched.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact Cert.KernelIdeal.Result.result_eq m ρ m' c h0 h1 h2 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
